-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x32 : Shape := ⟨2, ![8192, 32]⟩
abbrev S32 : Shape := ⟨1, ![32]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S256x8192 .f32) (main_arg1 : FVec F S8192x32 .f32) (main_arg2 : FVec F S32 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S256x8192 : Shape := ⟨2, ![256, 8192]⟩
abbrev S8192x32 : Shape := ⟨2, ![8192, 32]⟩
abbrev S32 : Shape := ⟨1, ![32]⟩
abbrev S_ : Shape := ⟨0, ![]⟩
abbrev S8192x128 : Shape := ⟨2, ![8192, 128]⟩
abbrev S128 : Shape := ⟨1, ![128]⟩
abbrev S256x128 : Shape := ⟨2, ![256, 128]⟩
abbrev S64x512 : Shape := ⟨2, ![64, 512]⟩
abbrev S512x128 : Shape := ⟨2, ![512, 128]⟩
abbrev S64x128 : Shape := ⟨2, ![64, 128]⟩
abbrev S64x16x128 : Shape := ⟨3, ![64, 16, 128]⟩
abbrev S64x32x16 : Shape := ⟨3, ![64, 32, 16]⟩
abbrev S32x16x128 : Shape := ⟨3, ![32, 16, 128]⟩
abbrev S64x32x16x1 : Shape := ⟨4, ![64, 32, 16, 1]⟩
abbrev S1x32x16x128 : Shape := ⟨4, ![1, 32, 16, 128]⟩
abbrev S64x32x16x128 : Shape := ⟨4, ![64, 32, 16, 128]⟩
abbrev S1x128 : Shape := ⟨2, ![1, 128]⟩
abbrev S256x32 : Shape := ⟨2, ![256, 32]⟩

abbrev nBuf : Space → Nat
  | .hbm => 11
  | .vmem => 8
  | .smem => 0
  | _ => 0

abbrev bufTy : (tb : Table) → Fin (tcTables nBuf tb) → BufTy
  | .hbm, ⟨0, _⟩ => ⟨S256x8192, .f32⟩
  | .hbm, ⟨1, _⟩ => ⟨S8192x32, .f32⟩
  | .hbm, ⟨2, _⟩ => ⟨S32, .f32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S256x128, .f32⟩
  | .hbm, ⟨10, _⟩ => ⟨S256x32, .f32⟩
  | .local _ .vmem, ⟨0, _⟩ => ⟨S64x512, .f32⟩
  | .local _ .vmem, ⟨1, _⟩ => ⟨S64x512, .f32⟩
  | .local _ .vmem, ⟨2, _⟩ => ⟨S512x128, .f32⟩
  | .local _ .vmem, ⟨3, _⟩ => ⟨S512x128, .f32⟩
  | .local _ .vmem, ⟨4, _⟩ => ⟨S128, .f32⟩
  | .local _ .vmem, ⟨5, _⟩ => ⟨S64x128, .f32⟩
  | .local _ .vmem, ⟨6, _⟩ => ⟨S64x128, .f32⟩
  | .local _ .vmem, ⟨7, _⟩ => ⟨S64x16x128, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S8192x32_S8192x128_000_0960 : S8192x32.Pads (![0, 0] : Fin 2 → Nat) ![0, 96] ![0, 0] S8192x128
  h_S_ : 0 < S_.numel
  pads_S32_S128_0960 : S32.Pads (![0] : Fin 1 → Nat) ![96] ![0] S128
  inb_S64x16x128_S64x16x128_0_0_0 : ∀ a, (![0, 0, 0] : Fin 3 → Nat) a + S64x16x128.size a ≤ S64x16x128.size a
  h_S64x16x128 : 0 < S64x16x128.numel
  shapeCasts_S64x16x128_S64x16x128 : S64x16x128.ShapeCasts S64x16x128
  inb_S64x512_S64x512_0_0 : ∀ a, (![0, 0] : Fin 2 → Nat) a + S64x512.size a ≤ S64x512.size a
  h_S64x512 : 0 < S64x512.numel
  shapeCasts_S64x512_S64x32x16 : S64x512.ShapeCasts S64x32x16
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x128_S32x16x128 : S512x128.ShapeCasts S32x16x128
  shapeCasts_S64x32x16_S64x32x16x1 : S64x32x16.ShapeCasts S64x32x16x1
  shapeCasts_S32x16x128_S1x32x16x128 : S32x16x128.ShapeCasts S1x32x16x128
  broadcasts_S64x32x16x1_S64x32x16x128 : S64x32x16x1.Broadcasts S64x32x16x128
  broadcasts_S1x32x16x128_S64x32x16x128 : S1x32x16x128.Broadcasts S64x32x16x128
  reduces_S64x32x16x128_S64x16x128 : S64x32x16x128.Reduces [1] S64x16x128
  reduces_S64x16x128_S64x128 : S64x16x128.Reduces [1] S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  slices_S256x128_S256x32_0_0 : S256x128.Slices ![0, 0] S256x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S256x8192.size a
  hwx0_0 : ∀ i : grid0.Coords, EltTy.bits .f32 = 32 ∨ (Rect.block (s := S256x8192) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S256x128.size a
  hwx0_3 : ∀ i : grid0.Coords, EltTy.bits .f32 = 32 ∨ (Rect.block (s := S256x128) S64x128.size (cc0_transform_3 i) (hinb0_3 i)).WholeWords (EltTy.packing .f32)

variable [Facts₀]

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x32 : Shape := ⟨2, ![8192, 32]⟩
abbrev S32 : Shape := ⟨1, ![32]⟩
abbrev S256x512x16 : Shape := ⟨3, ![256, 512, 16]⟩
abbrev S512x16x32 : Shape := ⟨3, ![512, 16, 32]⟩
abbrev S256x512x16x1 : Shape := ⟨4, ![256, 512, 16, 1]⟩
abbrev S1x512x16x32 : Shape := ⟨4, ![1, 512, 16, 32]⟩
abbrev S256x512x16x32 : Shape := ⟨4, ![256, 512, 16, 32]⟩
abbrev S_ : Shape := ⟨0, ![]⟩
abbrev S256x16x32 : Shape := ⟨3, ![256, 16, 32]⟩
abbrev S256x32 : Shape := ⟨2, ![256, 32]⟩
abbrev S1x32 : Shape := ⟨2, ![1, 32]⟩

abbrev nBuf : Space → Nat
  | .hbm => 20
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x32, .f32⟩
  | .hbm, ⟨2, _⟩ => ⟨S32, .f32⟩
  | .hbm, ⟨3, _⟩ => ⟨S256x512x16, .f32⟩
  | .hbm, ⟨4, _⟩ => ⟨S512x16x32, .f32⟩
  | .hbm, ⟨5, _⟩ => ⟨S256x512x16x1, .f32⟩
  | .hbm, ⟨6, _⟩ => ⟨S1x512x16x32, .f32⟩
  | .hbm, ⟨7, _⟩ => ⟨S256x512x16x32, .f32⟩
  | .hbm, ⟨8, _⟩ => ⟨S256x512x16x32, .f32⟩
  | .hbm, ⟨9, _⟩ => ⟨S256x512x16x32, .f32⟩
  | .hbm, ⟨10, _⟩ => ⟨S_, .f32⟩
  | .hbm, ⟨11, _⟩ => ⟨S256x16x32, .f32⟩
  | .hbm, ⟨12, _⟩ => ⟨S_, .f32⟩
  | .hbm, ⟨13, _⟩ => ⟨S256x32, .f32⟩
  | .hbm, ⟨14, _⟩ => ⟨S1x32, .f32⟩
  | .hbm, ⟨15, _⟩ => ⟨S256x32, .f32⟩
  | .hbm, ⟨16, _⟩ => ⟨S256x32, .f32⟩
  | .hbm, ⟨17, _⟩ => ⟨S_, .f32⟩
  | .hbm, ⟨18, _⟩ => ⟨S256x32, .f32⟩
  | .hbm, ⟨19, _⟩ => ⟨S256x32, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S256x8192_S256x512x16 : S256x8192.ShapeCasts S256x512x16
  shapeCasts_S8192x32_S512x16x32 : S8192x32.ShapeCasts S512x16x32
  bcast_S256x512x16_S256x512x16x1_0_1_2 : S256x512x16.BroadcastsInDim S256x512x16x1 (![0, 1, 2] : Fin 3 → Fin S256x512x16x1.rank)
  bcast_S512x16x32_S1x512x16x32_1_2_3 : S512x16x32.BroadcastsInDim S1x512x16x32 (![1, 2, 3] : Fin 3 → Fin S1x512x16x32.rank)
  bcast_S256x512x16x1_S256x512x16x32_0_1_2_3 : S256x512x16x1.BroadcastsInDim S256x512x16x32 (![0, 1, 2, 3] : Fin 4 → Fin S256x512x16x32.rank)
  bcast_S1x512x16x32_S256x512x16x32_0_1_2_3 : S1x512x16x32.BroadcastsInDim S256x512x16x32 (![0, 1, 2, 3] : Fin 4 → Fin S256x512x16x32.rank)
  reducesTo_S256x512x16x32_S256x16x32_d1 : S256x512x16x32.ReducesTo [1] S256x16x32
  h_S_ : 0 < S_.numel
  reducesTo_S256x16x32_S256x32_d1 : S256x16x32.ReducesTo [1] S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)

variable [Facts₀]

class Facts : Prop extends Facts₀ where

variable [Facts]
-- ==== Proof.Pieces.lean ====
/-
  What one visit of the kernel body leaves behind, as values.

  The body keeps a running maximum in a scratch array of shape [64, 16, 128]. At a point that begins a row block
  it first resets the scratch to −∞ and then folds the tile in, so it leaves the update of −∞; at every other point
  it leaves the update of what the point before left; and at a point that ends a row block it also writes the
  output block: the epilogue of the scratch it has just updated. Each of these is one whole-array store whose
  operands are whole-array loads, so what the buffer holds afterwards is the stored value itself.
-/
import proofs.«152779_j77163382440516_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A point inside a row block: the scratch ends at the update of what it held. -/
theorem scratch_B (c : Dev nD) (i : grid0.Coords) (a2 : Memref sig .tc .vmem S64x512 .f32) (h2 : a2.IsWhole)
    (a3 : Memref sig .tc .vmem S512x128 .f32) (h3 : a3.IsWhole) (a4 : Memref sig .tc .vmem S128 .f32) (h4 : a4.IsWhole)
    (a5 : Memref sig .tc .vmem S64x128 .f32) (h5 : a5.IsWhole) (a6 : Memref sig .tc .vmem S64x16x128 .f32) (h6 : a6.IsWhole)
    (hc0 : ¬cond0_0 i) (hc1 : ¬cond0_1 i) (x0 : Vec F S64x512 .f32) (x1 : Vec F S512x128 .f32) (x2 : Vec F S128 .f32)
    (xs0 : Vec F S64x16x128 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz3]
  simp only [View.readAt_eq_ld, h2.read_unread, h3.read_unread, h6.read_unread, View.ld_unit_zero (S := S64x512) hz2,
    View.ld_unit_zero (S := S512x128) hz2, View.ld_unit_zero (S := S64x16x128) hz3]

/-- A point that begins a row block: the reset is stored first and read back, so the scratch ends at the update
    of −∞ everywhere. -/
theorem scratch_A (c : Dev nD) (i : grid0.Coords) (a2 : Memref sig .tc .vmem S64x512 .f32) (h2 : a2.IsWhole)
    (a3 : Memref sig .tc .vmem S512x128 .f32) (h3 : a3.IsWhole) (a4 : Memref sig .tc .vmem S128 .f32) (h4 : a4.IsWhole)
    (a5 : Memref sig .tc .vmem S64x128 .f32) (h5 : a5.IsWhole) (a6 : Memref sig .tc .vmem S64x16x128 .f32) (h6 : a6.IsWhole)
    (hc0 : cond0_0 i) (hc1 : ¬cond0_1 i) (x0 : Vec F S64x512 .f32) (x1 : Vec F S512x128 .f32) (x2 : Vec F S128 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S64x16x128) hz3, View.readCov_unit_zero (S := S64x16x128) _ hz3]
  simp only [View.readAt_eq_ld, h2.read_unread, h3.read_unread, View.ld_unit_zero (S := S64x512) hz2,
    View.ld_unit_zero (S := S512x128) hz2, View.ld_unit_zero (S := S64x16x128) hz3]

/-- A point that ends a row block: the scratch ends at the update of what it held, as inside the block, -/
theorem scratch_C (c : Dev nD) (i : grid0.Coords) (a2 : Memref sig .tc .vmem S64x512 .f32) (h2 : a2.IsWhole)
    (a3 : Memref sig .tc .vmem S512x128 .f32) (h3 : a3.IsWhole) (a4 : Memref sig .tc .vmem S128 .f32) (h4 : a4.IsWhole)
    (a5 : Memref sig .tc .vmem S64x128 .f32) (h5 : a5.IsWhole) (a6 : Memref sig .tc .vmem S64x16x128 .f32) (h6 : a6.IsWhole)
    (hc0 : ¬cond0_0 i) (hc1 : cond0_1 i) (x0 : Vec F S64x512 .f32) (x1 : Vec F S512x128 .f32) (x2 : Vec F S128 .f32)
    (xs0 : Vec F S64x16x128 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h6.read_unread, View.ld_unit_zero (S := S64x512) hz2,
    View.ld_unit_zero (S := S512x128) hz2, View.ld_unit_zero (S := S64x16x128) hz3]

/-- and the output block is the epilogue of that updated scratch (read back after its store) and the bias block. -/
theorem out_C (c : Dev nD) (i : grid0.Coords) (a2 : Memref sig .tc .vmem S64x512 .f32) (h2 : a2.IsWhole)
    (a3 : Memref sig .tc .vmem S512x128 .f32) (h3 : a3.IsWhole) (a4 : Memref sig .tc .vmem S128 .f32) (h4 : a4.IsWhole)
    (a5 : Memref sig .tc .vmem S64x128 .f32) (h5 : a5.IsWhole) (a6 : Memref sig .tc .vmem S64x16x128 .f32) (h6 : a6.IsWhole)
    (hc0 : ¬cond0_0 i) (hc1 : cond0_1 i) (x0 : Vec F S64x512 .f32) (x1 : Vec F S512x128 .f32) (x2 : Vec F S128 .f32)
    (xs0 : Vec F S64x16x128 .f32) :
    out0_C_3 c i a2 h2 a3 h3 a4 h4 a5 h5 a6 h6 hc0 hc1 x0 x1 x2 xs0 = k0_pay3 (k0_pay2 x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread, View.ld_unit_zero (S := S64x512) hz2,
    View.ld_unit_zero (S := S512x128) hz2, View.ld_unit_zero (S := S64x16x128) hz3, View.ld_unit_zero (S := S128) hz1,
    View.readCov_unit_zero (S := S64x16x128) _ hz3]

end Cert.KernelIdeal.Pieces

end
-- ==== Proof.ShiftMax.lean ====
/-
  The mathematics of the layer, free of either program.

  For one row `r` of `x`, one filter `f` and one output column, write `g s` for the product of `x` at row `r`,
  position `16 s + f`, with the weight column at position `16 s + f` (`s` the shift, 512 of them). The layer's value is

      max (∑ f, (max over all 512 shifts s of g s) + bias) 0,

  every maximum taken from −∞. A maximum over all shifts can be taken tile by tile: the shifts split into 16 tiles
  of 32 consecutive ones (`shift a s' = 32 a + s'`), and the maximum over the first `32 (a + 1)` shifts is the larger
  of the maximum over the first `32 a` and tile `a`'s own maximum (`partMax_step`); after the last tile it is the
  maximum over them all (`partMax_all`). Nothing here needs the entries to be finite: `max` on the extended reals
  is a lattice operation with −∞ its neutral element, and each fact is read off the maximum's universal property
  (`m ≤ c` iff every entry is `≤ c`).
-/
import Idealize.ShloMosaic.PureOps.Ideal
import Idealize.ShloMosaic.Lib.ValueIdx
import Mathlib.Data.Finset.Fold

noncomputable section

namespace Cert.ShiftMax

open Idealize.ShloMosaic Idealize.ShloMosaic.ValueIdx

/-- Where (shift `s`, filter `f`) sits along the flattened axis of length 8192 = 512 · 16. -/
def pos (s : Fin 512) (f : Fin 16) : Fin 8192 := ⟨s.val * 16 + f.val, by have := s.isLt; have := f.isLt; omega⟩

/-- Shift number `s'` of tile `a`: the tiles are 32 consecutive shifts each. -/
def shift (a : Fin 16) (s' : Fin 32) : Fin 512 := ⟨a.val * 32 + s'.val, by have := a.isLt; have := s'.isLt; omega⟩

/-- Where (shift `s'` of a tile, filter `f`) sits among the tile's 512 = 32 · 16 positions. -/
def tpos (s' : Fin 32) (f : Fin 16) : Fin 512 := ⟨s'.val * 16 + f.val, by have := s'.isLt; have := f.isLt; omega⟩

/-- Position `j` of tile `a` along the flattened axis: the tiles are 512 consecutive positions each. -/
def tileAt (a : Fin 16) (j : Fin 512) : Fin 8192 := ⟨a.val * 512 + j.val, by have := a.isLt; have := j.isLt; omega⟩

/-- A tile's position (shift `s'`, filter `f`) is the whole axis's position (shift `32 a + s'`, filter `f`). -/
theorem tileAt_tpos (a : Fin 16) (s' : Fin 32) (f : Fin 16) : tileAt a (tpos s' f) = pos (shift a s') f :=
  Fin.ext (by show a.val * 512 + (s'.val * 16 + f.val) = (a.val * 32 + s'.val) * 16 + f.val; omega)

/-- The maximum, from −∞, of `g` over the shifts below `n`. -/
def partMax (g : Fin 512 → EReal) (n : ℕ) : EReal := (Finset.univ.filter fun s : Fin 512 => s.val < n).fold max ⊥ g

/-- Tile `a`'s own maximum, from −∞. -/
def tileMax (g : Fin 512 → EReal) (a : Fin 16) : EReal := (Finset.univ : Finset (Fin 32)).fold max ⊥ fun s' => g (shift a s')

/-- The maximum over all 512 shifts, from −∞. -/
def allMax (g : Fin 512 → EReal) : EReal := (Finset.univ : Finset (Fin 512)).fold max ⊥ g

theorem partMax_le_iff (g : Fin 512 → EReal) (n : ℕ) (c : EReal) :
    partMax g n ≤ c ↔ ∀ s : Fin 512, s.val < n → g s ≤ c := by
  unfold partMax
  rw [Finset.fold_max_le]
  simp only [bot_le, true_and, Finset.mem_filter, Finset.mem_univ]

theorem tileMax_le_iff (g : Fin 512 → EReal) (a : Fin 16) (c : EReal) :
    tileMax g a ≤ c ↔ ∀ s' : Fin 32, g (shift a s') ≤ c := by
  unfold tileMax
  rw [Finset.fold_max_le]
  simp only [bot_le, true_and, Finset.mem_univ, forall_true_left]

theorem allMax_le_iff (g : Fin 512 → EReal) (c : EReal) : allMax g ≤ c ↔ ∀ s : Fin 512, g s ≤ c := by
  unfold allMax
  rw [Finset.fold_max_le]
  simp only [bot_le, true_and, Finset.mem_univ, forall_true_left]

/-- Below no shift the maximum is −∞. -/
theorem partMax_zero (g : Fin 512 → EReal) : partMax g 0 = ⊥ := by
  refine le_antisymm ((partMax_le_iff g 0 ⊥).mpr fun s h => absurd h (Nat.not_lt_zero _)) bot_le

/-- One more tile: the running maximum through tile `a` is the larger of the one before it and the tile's own. -/
theorem partMax_step (g : Fin 512 → EReal) (a : Fin 16) :
    max (partMax g (32 * a.val)) (tileMax g a) = partMax g (32 * (a.val + 1)) := by
  refine eq_of_forall_ge_iff fun c => ?_
  rw [max_le_iff, partMax_le_iff, partMax_le_iff, tileMax_le_iff]
  constructor
  · rintro ⟨h1, h2⟩ s hs
    by_cases hlt : s.val < 32 * a.val
    · exact h1 s hlt
    · have hs' : s.val - 32 * a.val < 32 := by omega
      have e : shift a ⟨s.val - 32 * a.val, hs'⟩ = s := Fin.ext (by show a.val * 32 + (s.val - 32 * a.val) = s.val; omega)
      exact e ▸ h2 ⟨s.val - 32 * a.val, hs'⟩
  · intro h
    refine ⟨fun s hs => h s (by omega), fun s' => h _ ?_⟩
    show a.val * 32 + s'.val < 32 * (a.val + 1)
    have := s'.isLt
    omega

/-- The first tile, taken over a freshly reset −∞. -/
theorem partMax_first (g : Fin 512 → EReal) (a : Fin 16) (ha : a.val = 0) : max ⊥ (tileMax g a) = partMax g 32 := by
  have h := partMax_step g a
  rw [ha, Nat.mul_zero, partMax_zero] at h
  exact h

/-- After the last tile nothing is left out. -/
theorem partMax_all (g : Fin 512 → EReal) : partMax g 512 = allMax g := by
  refine eq_of_forall_ge_iff fun c => ?_
  rw [partMax_le_iff, allMax_le_iff]
  exact ⟨fun h s => h s s.isLt, fun h s _ => h s⟩

/-- The products whose maximum is taken: row `X` of the input against one column `Wc` of the weights, at filter
    `f`, as a function of the shift. -/
def prods (X : Fin 8192 → EReal) (Wc : Fin 8192 → EReal) (f : Fin 16) : Fin 512 → EReal :=
  fun s => X (pos s f) * Wc (pos s f)

/-- The layer at one row and one output column: the filters' maxima summed, the bias added, rectified. -/
def layer (X : Fin 8192 → EReal) (Wc : Fin 8192 → EReal) (bo : EReal) : EReal :=
  max ((∑ f : Fin 16, allMax (prods X Wc f)) + bo) 0

/-- The layer over whole arrays: at (row r, column o), row r of x against column o of the weights and the bias's
    entry o. -/
def value {O : ℕ} (x : (⟨2, ![256, 8192]⟩ : Shape).Idx → EReal) (w : (⟨2, ![8192, O]⟩ : Shape).Idx → EReal)
    (b : (⟨1, ![O]⟩ : Shape).Idx → EReal) : (⟨2, ![256, O]⟩ : Shape).Idx → EReal :=
  fun i => layer (fun k => x (ix2 (i 0) k)) (fun k => w (ix2 k (i 1))) (b (ix1 (i 1)))

end Cert.ShiftMax

end
-- ==== Proof.Payloads.lean ====
/-
  The kernel body's three stored values, read at one entry, at the ideal instance.

  The reset stores −∞ everywhere. The update stores, at (row p, filter f, column o), the larger of what the
  scratch held there and the tile's maximum over its 32 shifts s' of the input block at (p, 16 s' + f) times the
  weight block at (16 s' + f, o): the two blocks are viewed as [64, 32, 16] and [32, 16, 128] (a row-major
  regrouping of the 512 positions as 32 shifts of 16 filters), broadcast against each other, multiplied, and
  reduced over the shift axis from −∞. The epilogue stores, at (p, o), the scratch summed over the 16 filters, plus
  the bias at o, rectified against zero.
-/
import proofs.«152779_j77163382440516_1_alg».proof.Proof.Gen.KernelIdeal.Skeleton
import proofs.«152779_j77163382440516_1_alg».proof.Proof.ShiftMax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen Cert.ShiftMax

/-- The word 0xFF800000 is −∞. -/
theorem bot_word : Ideal.ofBits .f32 0xFF800000#32 = (⊥ : EReal) := by simp [Ideal.ofBits, Ideal.ieee]

section Layout
variable {α : Type}

/-- A [64, 512] block viewed [64, 32, 16]: entry (p, s', f) is the block's entry (p, 16 s' + f), the two having the same
    row-major position, 512 p + 16 s' + f. -/
theorem cast_x_apply (x : S64x512.Idx → α) (h : S64x512.ShapeCasts S64x32x16) (p : Fin 64) (s' : Fin 32) (f : Fin 16) :
    shapeCast S64x32x16 x h (ix3 p s' f) = x (ix2 p (tpos s' f)) :=
  shapeCast_apply x h _ _ (by
    rw [Shape.rowMajor_val_two, Shape.rowMajor_val_three]
    show p.val * 512 + (s'.val * 16 + f.val) = (p.val * 32 + s'.val) * 16 + f.val
    omega)

/-- A [512, 128] block viewed [32, 16, 128]: entry (s', f, o) is the block's entry (16 s' + f, o). -/
theorem cast_w_apply (w : S512x128.Idx → α) (h : S512x128.ShapeCasts S32x16x128) (s' : Fin 32) (f : Fin 16) (o : Fin 128) :
    shapeCast S32x16x128 w h (ix3 s' f o) = w (ix2 (tpos s' f) o) :=
  shapeCast_apply w h _ _ (by
    rw [Shape.rowMajor_val_two, Shape.rowMajor_val_three]
    show (s'.val * 16 + f.val) * 128 + o.val = (s'.val * 16 + f.val) * 128 + o.val
    rfl)

/-- A trailing unit axis added: [64, 32, 16] viewed [64, 32, 16, 1] reads (p, s', f, 0) at (p, s', f). -/
theorem cast_x1_apply (x : S64x32x16.Idx → α) (h : S64x32x16.ShapeCasts S64x32x16x1) (p : Fin 64) (s' : Fin 32) (f : Fin 16)
    (u : Fin 1) : shapeCast S64x32x16x1 x h (ix4 p s' f u) = x (ix3 p s' f) :=
  shapeCast_apply x h _ _ (by
    have hu : u.val = 0 := by omega
    rw [Shape.rowMajor_val_three, Shape.rowMajor_val_four]
    show (p.val * 32 + s'.val) * 16 + f.val = ((p.val * 32 + s'.val) * 16 + f.val) * 1 + u.val
    omega)

/-- The column [64, 32, 16, 1] broadcast along the last axis reads, at (p, s', f, o), its entry (p, s', f, 0). -/
theorem bcast_x_apply (x : S64x32x16x1.Idx → α) (h : S64x32x16x1.Broadcasts S64x32x16x128) (p : Fin 64) (s' : Fin 32)
    (f : Fin 16) (o : Fin 128) : broadcastTo S64x32x16x128 x h (ix4 p s' f o) = x (ix4 p s' f (0 : Fin 1)) :=
  broadcastTo_apply x h _ _ fun a => match a with
    | ⟨0, _⟩ => rfl
    | ⟨1, _⟩ => rfl
    | ⟨2, _⟩ => rfl
    | ⟨3, _⟩ => rfl

/-- The slab [1, 32, 16, 128] broadcast along the first axis reads, at (p, s', f, o), its entry (0, s', f, o). -/
theorem bcast_w_apply (w : S1x32x16x128.Idx → α) (h : S1x32x16x128.Broadcasts S64x32x16x128) (p : Fin 64) (s' : Fin 32)
    (f : Fin 16) (o : Fin 128) : broadcastTo S64x32x16x128 w h (ix4 p s' f o) = w (ix4 (0 : Fin 1) s' f o) :=
  broadcastTo_apply w h _ _ fun a => match a with
    | ⟨0, _⟩ => rfl
    | ⟨1, _⟩ => rfl
    | ⟨2, _⟩ => rfl
    | ⟨3, _⟩ => rfl

end Layout

/-- The maximum over the shift axis of a [64, 32, 16, 128] block, taken from −∞, read at (p, f, o): the fold of `max` from
    −∞ over the 32 shifts s' of the block's entry (p, s', f, o). -/
theorem max_axis1_apply (src : FVec Ideal S64x32x16x128 .f32) (hφ : FKind.Formats FTy.f32)
    (hacc : (0xFF800000#32 : BitVec 32) = 0xFF800000#32) (p : Fin 64) (f : Fin 16) (o : Fin 128) :
    multiReduction (F := Ideal) .maximumf [1] S64x16x128 src 0xFF800000#32 reduces_S64x32x16x128_S64x16x128 hφ hacc (ix3 p f o)
      = (Finset.univ : Finset (Fin 32)).fold max ⊥ fun s' => src (ix4 p s' f o) := by
  refine (Ideal.multiReduction_maximumf_single src 0xFF800000#32 reduces_S64x32x16x128_S64x16x128 hφ hacc (ix3 p f o)).trans ?_
  refine congrArg₂ (fun (b : EReal) (g : Fin 32 → EReal) => (Finset.univ : Finset (Fin 32)).fold max b g) bot_word
    (funext fun s' => congrArg src ?_)
  funext a
  match a with
  | ⟨0, _⟩ => rfl
  | ⟨1, _⟩ => rfl
  | ⟨2, _⟩ => rfl
  | ⟨3, _⟩ => rfl

/-- The sum over the filter axis of a [64, 16, 128] block, read at (p, o): the sum over the 16 filters f of the block's
    entry (p, f, o). -/
theorem sum_axis1_apply (src : FVec Ideal S64x16x128 .f32) (hφ : FKind.Formats FTy.f32)
    (hacc : (0x00000000#32 : BitVec 32) = 0x00000000#32) (p : Fin 64) (o : Fin 128) :
    multiReduction (F := Ideal) .add [1] S64x128 src 0x00000000#32 reduces_S64x16x128_S64x128 hφ hacc (ix2 p o)
      = ∑ f : Fin 16, src (ix3 p f o) := by
  refine (Ideal.multiReduction_add_single src 0x00000000#32 reduces_S64x16x128_S64x128 hφ hacc (ix2 p o)).trans ?_
  refine Finset.sum_congr rfl fun f _ => congrArg src ?_
  funext a
  match a with
  | ⟨0, _⟩ => rfl
  | ⟨1, _⟩ => rfl
  | ⟨2, _⟩ => rfl

/-- The reset's value: −∞ at every entry. -/
theorem reset_apply (p : Fin 64) (f : Fin 16) (o : Fin 128) :
    k0_pay1 (F := Ideal) (ix3 p f o) = (⊥ : EReal) := by
  unfold k0_pay1
  rw [shapeCast_self]
  exact bot_word

/-- The update's value at (p, f, o): the larger of the scratch's entry and the tile's maximum of the products. -/
theorem update_apply (xb : Vec Ideal S64x512 .f32) (wb : Vec Ideal S512x128 .f32) (acc : Vec Ideal S64x16x128 .f32)
    (p : Fin 64) (f : Fin 16) (o : Fin 128) :
    k0_pay2 (F := Ideal) xb wb acc (ix3 p f o)
      = max (acc (ix3 p f o))
          ((Finset.univ : Finset (Fin 32)).fold max ⊥ fun s' => xb (ix2 p (tpos s' f)) * wb (ix2 (tpos s' f) o)) := by
  unfold k0_pay2
  rw [shapeCast_self, maximumf_apply]
  -- the reduction is the fold over the shifts; under the fold, each product reads its two factors through the views
  refine congrArg (max (acc (ix3 p f o))) ((max_axis1_apply _ _ _ p f o).trans ?_)
  refine congrArg (fun g : Fin 32 → EReal => (Finset.univ : Finset (Fin 32)).fold max ⊥ g) (funext fun s' => ?_)
  rw [mulf_apply, bcast_x_apply, cast_x1_apply, cast_x_apply, bcast_w_apply, shapeCast_abc_1abc_apply, cast_w_apply,
    shapeCast_self]

/-- The epilogue's value at (p, o): the scratch summed over the filters, plus the bias, rectified. -/
theorem epilogue_apply (acc : Vec Ideal S64x16x128 .f32) (bias : Vec Ideal S128 .f32) (p : Fin 64) (o : Fin 128) :
    k0_pay3 (F := Ideal) acc bias (ix2 p o)
      = max ((∑ f : Fin 16, acc (ix3 p f o)) + bias (ix1 o)) 0 := by
  unfold k0_pay3
  rw [maximumf_apply, addf_apply, broadcast_apply]
  -- the sum over the filters, the bias read through its row view and its broadcast, and the zero word
  refine congrArg₂ max (congrArg₂ (· + ·) (sum_axis1_apply acc _ _ p o) ?_) Ideal.ofBits_zero_f32
  rw [broadcastTo_1b_ab_apply, shapeCast_a_1a_apply, shapeCast_self]

end Cert.KernelIdeal.Payloads

end
-- ==== Proof.RunningMax.lean ====
/-
  What the kernel's output array holds after the run, at the ideal instance.

  The grid is 4 row blocks by 16 tiles, visited row block by row block; point `t` is row block `t / 16`, tile
  `t % 16`. At point `t` the body sees rows `64 (t / 16) + p` of x, positions `512 (t % 16) + j` of x's and of the
  padded weights' flattened axis, and the whole padded bias. Inside a block position `16 s' + f` is shift `s'` of the
  tile, filter `f`, which is shift `32 (t % 16) + s'` of the whole axis: so the tile maximum the body folds into the
  scratch at (p, f, o) is the maximum, over that tile's shifts, of x's row against column o of the weights.

  By induction over the points, after point `t` the scratch holds at (p, f, o) the maximum over the first
  `32 (t % 16 + 1)` shifts (the first tile of a row block starts from the reset −∞; every later one continues what the
  point before left, which belongs to the same row block). At the last tile of a row block that is the maximum over
  all shifts, and the block written back is the layer's value for the block's rows. The four written blocks tile
  the [256, 128] array.
-/
import proofs.«152779_j77163382440516_1_alg».proof.Proof.Pieces
import proofs.«152779_j77163382440516_1_alg».proof.Proof.Payloads
import proofs.«152779_j77163382440516_1_alg».proof.Proof.ShiftMax
import Idealize.ShloMosaic.Lib.Pipeline.Value

noncomputable section

open Idealize.ShloMosaic Idealize.ShloMosaic.TcCoe Idealize.SL.Sem
open Idealize.ShloMosaic.Pipeline (Dat)

namespace Cert.KernelIdeal.RunningMax

open Cert.KernelIdeal Cert.KernelIdeal.Gen Cert.ShiftMax Idealize.ShloMosaic.ValueIdx

variable (m : (ℓ : Loc nD τ sig) → Buf (Elt Ideal) ℓ)

/-- The three arrays the region reads, as it finds them: x, the padded weights, the padded bias. -/
abbrev xarr (c : Dev nD) : Vec Ideal S256x8192 .f32 := V m c main_arg0
abbrev warr (c : Dev nD) : Vec Ideal S8192x128 .f32 := V m c main_v0
abbrev barr (c : Dev nD) : Vec Ideal S128 .f32 := V m c main_v1

/-- Their blocks at point `t`. -/
abbrev xblk (c : Dev nD) (t : Fin cfg0.N) : Vec Ideal S64x512 .f32 := iblk m c 0 t
abbrev wblk (c : Dev nD) (t : Fin cfg0.N) : Vec Ideal S512x128 .f32 := iblk m c 1 t
abbrev bblk (c : Dev nD) (t : Fin cfg0.N) : Vec Ideal S128 .f32 := iblk m c 2 t

/-- Where each window's block sits at point `t`: row block `t / 16`, tile `t % 16`. -/
theorem idx_facts : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 1) = 0
    ∧ win0_3.index t (0 : Fin 2) = t.val / 16 ∧ win0_3.index t (1 : Fin 2) = 0 :=
  (by decide +kernel : ∀ t : Fin grid0.N, _)

/-- Row `p` of point `t`'s row block, in x. -/
def rowOf (t : Fin cfg0.N) (p : Fin 64) : Fin 256 :=
  ⟨t.val / 16 * 64 + p.val, by have := t.isLt; have hN : cfg0.N = 64 := N_0; have := p.isLt; omega⟩

/-- Point `t`'s tile. -/
def tileOf (t : Fin cfg0.N) : Fin 16 := ⟨t.val % 16, Nat.mod_lt _ (by decide)⟩

theorem xblk_apply (c : Dev nD) (t : Fin cfg0.N) (p : Fin 64) (j : Fin 512) :
    xblk m c t (ix2 p j) = xarr m c (ix2 (rowOf t p) (tileAt (tileOf t) j)) := by
  obtain ⟨e0, e1, -⟩ := idx_facts t
  show V m c main_arg0 (((cfg0.win 0).blk t).view.emb (ix2 p j)) = V m c main_arg0 _
  refine congrArg (V m c main_arg0) (funext fun a => Fin.ext ?_)
  match a with
  | ⟨0, _⟩ => show win0_0.index t (0 : Fin 2) * 64 + 1 * p.val = t.val / 16 * 64 + p.val; omega
  | ⟨1, _⟩ => show win0_0.index t (1 : Fin 2) * 512 + 1 * j.val = t.val % 16 * 512 + j.val; omega

theorem wblk_apply (c : Dev nD) (t : Fin cfg0.N) (j : Fin 512) (o : Fin 128) :
    wblk m c t (ix2 j o) = warr m c (ix2 (tileAt (tileOf t) j) o) := by
  obtain ⟨-, -, e2, e3, -⟩ := idx_facts t
  show V m c main_v0 (((cfg0.win 1).blk t).view.emb (ix2 j o)) = V m c main_v0 _
  refine congrArg (V m c main_v0) (funext fun a => Fin.ext ?_)
  match a with
  | ⟨0, _⟩ => show win0_1.index t (0 : Fin 2) * 512 + 1 * j.val = t.val % 16 * 512 + j.val; omega
  | ⟨1, _⟩ => show win0_1.index t (1 : Fin 2) * 128 + 1 * o.val = o.val; omega

theorem bblk_apply (c : Dev nD) (t : Fin cfg0.N) (o : Fin 128) : bblk m c t (ix1 o) = barr m c (ix1 o) := by
  obtain ⟨-, -, -, -, e4, -⟩ := idx_facts t
  show V m c main_v1 (((cfg0.win 2).blk t).view.emb (ix1 o)) = V m c main_v1 _
  refine congrArg (V m c main_v1) (funext fun a => Fin.ext ?_)
  match a with
  | ⟨0, _⟩ => show win0_2.index t (0 : Fin 1) * 128 + 1 * o.val = o.val; omega

/-- Row `r` of x against column `o` of the padded weights, at filter `f`, shift by shift. -/
def gOf (c : Dev nD) (r : Fin 256) (f : Fin 16) (o : Fin 128) : Fin 512 → EReal :=
  prods (fun k => xarr m c (ix2 r k)) (fun k => warr m c (ix2 k o)) f

/-- The maximum the body takes over a tile's 32 shifts of its two blocks is that tile's maximum of the whole arrays. -/
theorem tile_eq (c : Dev nD) (t : Fin cfg0.N) (p : Fin 64) (f : Fin 16) (o : Fin 128) :
    ((Finset.univ : Finset (Fin 32)).fold max ⊥ fun s' => xblk m c t (ix2 p (tpos s' f)) * wblk m c t (ix2 (tpos s' f) o))
      = tileMax (gOf m c (rowOf t p) f o) (tileOf t) := by
  unfold tileMax gOf prods
  refine congrArg (fun φ => Finset.fold max ⊥ φ (Finset.univ : Finset (Fin 32))) (funext fun s' => ?_)
  rw [xblk_apply m c t p (tpos s' f), wblk_apply m c t (tpos s' f) o, tileAt_tpos]

/-! ## What each kind of point leaves, over the blocks -/

theorem scratch_first (c : Dev nD) (t : Fin cfg0.N) (h0 : t.val % 16 = 0) (h1 : ¬t.val % 16 = 15) :
    (outsAt0 m c t.val t.isLt).2 = k0_pay2 (xblk m c t) (wblk m c t) (k0_pay1 (F := Ideal)) := by
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (xblk m c t) (wblk m c t) (bblk m c t)

theorem scratch_inner (c : Dev nD) (t : Fin cfg0.N) (h0 : ¬t.val % 16 = 0) (h1 : ¬t.val % 16 = 15) :
    (outsAt0 m c t.val t.isLt).2
      = k0_pay2 (xblk m c t) (wblk m c t) (outsAt0 m c (t.val - 1) (Nat.lt_of_le_of_lt (Nat.sub_le _ _) t.isLt)).2 := by
  rw [outsAt0_B m c t h0 h1]
  dsimp only
  exact Pieces.scratch_B (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (fun h => h1 ((hcond0_1 t).mp h)) (xblk m c t) (wblk m c t) (bblk m c t)
    (outsAt0 m c (t.val - 1) (Nat.lt_of_le_of_lt (Nat.sub_le _ _) t.isLt)).2

theorem scratch_last (c : Dev nD) (t : Fin cfg0.N) (h0 : ¬t.val % 16 = 0) (h1 : t.val % 16 = 15) :
    (outsAt0 m c t.val t.isLt).2
      = k0_pay2 (xblk m c t) (wblk m c t) (outsAt0 m c (t.val - 1) (Nat.lt_of_le_of_lt (Nat.sub_le _ _) t.isLt)).2 := by
  rw [outsAt0_C m c t h0 h1]
  dsimp only
  exact Pieces.scratch_C (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (xblk m c t) (wblk m c t) (bblk m c t)
    (outsAt0 m c (t.val - 1) (Nat.lt_of_le_of_lt (Nat.sub_le _ _) t.isLt)).2

/-- At the last tile of a row block the output block is the epilogue of the scratch that point leaves. -/
theorem out_last (c : Dev nD) (t : Fin cfg0.N) (h0 : ¬t.val % 16 = 0) (h1 : t.val % 16 = 15) :
    (outsAt0 m c t.val t.isLt).1 = k0_pay3 (outsAt0 m c t.val t.isLt).2 (bblk m c t) := by
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (xblk m c t) (wblk m c t) (bblk m c t)
    (outsAt0 m c (t.val - 1) (Nat.lt_of_le_of_lt (Nat.sub_le _ _) t.isLt)).2).trans
    (congrArg (fun s => k0_pay3 s (bblk m c t))
      (Pieces.scratch_C (F := Ideal) c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h1) (xblk m c t) (wblk m c t) (bblk m c t)
        (outsAt0 m c (t.val - 1) (Nat.lt_of_le_of_lt (Nat.sub_le _ _) t.isLt)).2).symm)

/-! ## The running maximum -/

/-- After point `n` the scratch holds, at (p, f, o), the maximum over the shifts of the tiles visited so far in
    the point's row block. -/
theorem scratch_eq (c : Dev nD) : ∀ (n : ℕ) (h : n < cfg0.N) (p : Fin 64) (f : Fin 16) (o : Fin 128),
    (outsAt0 m c n h).2 (ix3 p f o) = partMax (gOf m c (rowOf ⟨n, h⟩ p) f o) (32 * (n % 16 + 1)) := by
  intro n
  induction n using Nat.strong_induction_on with
  | _ n ih =>
    intro h p f o
    have hN : cfg0.N = 64 := N_0
    by_cases h0 : n % 16 = 0
    · have h1 : ¬n % 16 = 15 := by omega
      refine (congrFun (scratch_first m c ⟨n, h⟩ h0 h1) (ix3 p f o)).trans ?_
      refine (Payloads.update_apply (xblk m c ⟨n, h⟩) (wblk m c ⟨n, h⟩) (k0_pay1 (F := Ideal)) p f o).trans ?_
      rw [Payloads.reset_apply p f o, tile_eq m c ⟨n, h⟩ p f o]
      have e32 : 32 * (n % 16 + 1) = 32 := by omega
      rw [e32]
      exact partMax_first _ (tileOf ⟨n, h⟩) h0
    · have hprev : n - 1 < cfg0.N := by omega
      have e : (outsAt0 m c n h).2 = k0_pay2 (xblk m c ⟨n, h⟩) (wblk m c ⟨n, h⟩) (outsAt0 m c (n - 1) hprev).2 := by
        by_cases h1 : n % 16 = 15
        · exact scratch_last m c ⟨n, h⟩ h0 h1
        · exact scratch_inner m c ⟨n, h⟩ h0 h1
      refine (congrFun e (ix3 p f o)).trans ?_
      refine (Payloads.update_apply (xblk m c ⟨n, h⟩) (wblk m c ⟨n, h⟩) (outsAt0 m c (n - 1) hprev).2 p f o).trans ?_
      rw [ih (n - 1) (by omega) hprev p f o, tile_eq m c ⟨n, h⟩ p f o]
      have er : rowOf ⟨n - 1, hprev⟩ p = rowOf ⟨n, h⟩ p :=
        Fin.ext (by show (n - 1) / 16 * 64 + p.val = n / 16 * 64 + p.val; have : (n - 1) / 16 = n / 16 := by omega
                    rw [this])
      have en : 32 * ((n - 1) % 16 + 1) = 32 * (tileOf ⟨n, h⟩).val := by
        show 32 * ((n - 1) % 16 + 1) = 32 * (n % 16); omega
      rw [er, en]
      exact partMax_step _ (tileOf ⟨n, h⟩)

/-- At the last tile of a row block the output block holds the layer's value of the block's rows. -/
theorem out_eq (c : Dev nD) (t : Fin cfg0.N) (h1 : t.val % 16 = 15) (p : Fin 64) (o : Fin 128) :
    (outsAt0 m c t.val t.isLt).1 (ix2 p o)
      = layer (fun k => xarr m c (ix2 (rowOf t p) k)) (fun k => warr m c (ix2 k o)) (barr m c (ix1 o)) := by
  have h0 : ¬t.val % 16 = 0 := by omega
  refine (congrFun (out_last m c t h0 h1) (ix2 p o)).trans ?_
  refine (Payloads.epilogue_apply (outsAt0 m c t.val t.isLt).2 (bblk m c t) p o).trans ?_
  rw [bblk_apply m c t o]
  unfold layer
  refine congrArg (fun s => max (s + barr m c (ix1 o)) 0) (Finset.sum_congr rfl fun f _ => ?_)
  rw [scratch_eq m c t.val t.isLt p f o, ← partMax_all]
  have e : 32 * (t.val % 16 + 1) = 512 := by omega
  rw [e]
  rfl

/-! ## The output array -/

/-- The layer's value at every (row, padded column). -/
def result (c : Dev nD) : Buf (Elt Ideal) ((c : Thread nD τ).loc main_v2) :=
  fun i => layer (fun k => xarr m c (ix2 (i 0) k)) (fun k => warr m c (ix2 k (i 1))) (barr m c (ix1 (i 1)))

/-- What a writing-back point writes back is its block of the layer's values. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  obtain ⟨-, -, -, -, -, e5, e6⟩ := idx_facts t
  show (cfg0.win 3).cut (grid0.coords t) ((dats m 0 c).after 3 t) = _
  rw [after0_3]
  funext j
  show (outsAt0 m c t.val t.isLt).1 j = result m c (((cfg0.win 3).blk t).view.emb j)
  refine ((congrArg (outsAt0 m c t.val t.isLt).1 (eq_ix2 j)).trans (out_eq m c t h1 (j 0) (j 1))).trans ?_
  have r0 : (((cfg0.win 3).blk t).view.emb j) 0 = rowOf t (j 0) :=
    Fin.ext (by show win0_3.index t (0 : Fin 2) * 64 + 1 * (j 0).val = t.val / 16 * 64 + (j 0).val; omega)
  have r1 : (((cfg0.win 3).blk t).view.emb j) 1 = j 1 :=
    Fin.ext (by show win0_3.index t (1 : Fin 2) * 128 + 1 * (j 1).val = (j 1).val; omega)
  unfold result
  rw [r0, r1]

/-- Every entry of the array lies in the block written back at the last tile of its row block. -/
theorem cover (c : Dev nD) (i : S256x128.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hN : cfg0.N = 64 := N_0
  have ht : (i 0).val / 64 * 16 + 15 < cfg0.N := by omega
  obtain ⟨-, -, -, -, -, e5, e6⟩ := idx_facts ⟨(i 0).val / 64 * 16 + 15, ht⟩
  refine ⟨⟨(i 0).val / 64 * 16 + 15, ht⟩, (flush0_3 _).mpr (by show ((i 0).val / 64 * 16 + 15) % 16 = 15; omega), ?_⟩
  show i ∈ ((View.whole main_v2).slice (win0_3.rect ⟨(i 0).val / 64 * 16 + 15, ht⟩)).set
  rw [View.set_slice_whole, Rect.mem_set_unit]
  intro a
  match a with
  | ⟨0, _⟩ =>
    show win0_3.index ⟨(i 0).val / 64 * 16 + 15, ht⟩ (0 : Fin 2) * 64 ≤ (i 0).val
      ∧ (i 0).val < win0_3.index ⟨(i 0).val / 64 * 16 + 15, ht⟩ (0 : Fin 2) * 64 + 64
    rw [e5]; show ((i 0).val / 64 * 16 + 15) / 16 * 64 ≤ (i 0).val ∧ (i 0).val < ((i 0).val / 64 * 16 + 15) / 16 * 64 + 64
    omega
  | ⟨1, _⟩ =>
    show win0_3.index ⟨(i 0).val / 64 * 16 + 15, ht⟩ (1 : Fin 2) * 128 ≤ (i 1).val
      ∧ (i 1).val < win0_3.index ⟨(i 0).val / 64 * 16 + 15, ht⟩ (1 : Fin 2) * 128 + 128
    rw [e6]; omega

/-- So the array ends holding the layer's value everywhere. -/
theorem final (c : Dev nD) : (dats m 0 c).arrAt 3 cfg0.N = result m c :=
  (dats m 0 c).arrAt_eq_of_cover 3 (result m c) (flushed_eq m c) (cover c)

end Cert.KernelIdeal.RunningMax

end
-- ==== Proof.LayerRun.lean ====
/-
  The idealized kernel's run, read: its result is the layer's value.

  Before the region the host pads the weights from 32 to 128 columns and the bias from 32 to 128 entries, with
  zeros on the high side: on the first 32 columns the padded arrays are the arguments themselves. The region leaves
  the [256, 128] array holding the layer's value of x against the padded weights and bias, column by column; a
  column's value depends on that column of the weights and that entry of the bias only. After the region the host
  keeps columns 0 to 31. So the result at (r, o), o < 32, is the layer of x's row r against column o of the
  weights and entry o of the bias, and the padded columns never reach it.
-/
import proofs.«152779_j77163382440516_1_alg».proof.Proof.RunningMax
import Idealize.ShloMosaic.Lib.StableHlo.Run
import Idealize.ShloMosaic.Lib.KernelVsHost

noncomputable section

open Idealize.ShloMosaic Idealize.ShloMosaic.TcCoe Idealize.SL.Sem
open Idealize.ShloMosaic.Pipeline (Dat)

namespace Cert.KernelIdeal.LayerRun

open Cert.KernelIdeal Cert.KernelIdeal.Gen Cert.ShiftMax Idealize.ShloMosaic.ValueIdx Cert.KernelIdeal.RunningMax

variable (m : (ℓ : Loc nD τ sig) → Buf (Elt Ideal) ℓ) (ρ : Dev nD → PrngReg)

/-- Column `o < 32` among the padded 128. -/
def col (o : Fin 32) : Fin 128 := ⟨o.val, by have := o.isLt; omega⟩

/-- On its first 32 columns the padded weight array is the weight argument. -/
theorem warr_apply (c : Dev nD) (k : Fin 8192) (o : Fin 32) :
    warr m c (ix2 k (col o)) = m ((c : Thread nD τ).loc main_arg1) (ix2 k o) := by
  have e : (V m c main_v0 : S8192x128.Idx → Elt Ideal .f32)
      = pad S8192x128 ![0, 0] ![0, 96] ![0, 0] (m ((c : Thread nD τ).loc main_arg1) : S8192x32.Idx → Elt Ideal .f32)
          (sitofp (F := Ideal) .f32 (constantI S_ 32 0#32)) pads_S8192x32_S8192x128_000_0960 h_S_ := by
    dsimp only [V, V0]
    simp only [hostOps0, hostOps0_1, hostOps0_2, hostOps0_3, List.flatten_cons, List.flatten_nil, List.append_nil,
      List.cons_append, List.nil_append]
    after_results
    rfl
  show (V m c main_v0 : S8192x128.Idx → Elt Ideal .f32) (ix2 k (col o)) = _
  rw [e]
  exact pad_apply_of_inside ![0, 0] ![0, 96] ![0, 0] (m ((c : Thread nD τ).loc main_arg1) : S8192x32.Idx → Elt Ideal .f32)
    (sitofp (F := Ideal) .f32 (constantI S_ 32 0#32)) pads_S8192x32_S8192x128_000_0960 h_S_
    (ix2 k (col o)) (ix2 k o) fun a => match a with
      | ⟨0, _⟩ => by show k.val = 0 + k.val * (0 + 1); omega
      | ⟨1, _⟩ => by show o.val = 0 + o.val * (0 + 1); omega

/-- On its first 32 entries the padded bias is the bias argument. -/
theorem barr_apply (c : Dev nD) (o : Fin 32) :
    barr m c (ix1 (col o)) = m ((c : Thread nD τ).loc main_arg2) (ix1 o) := by
  have e : (V m c main_v1 : S128.Idx → Elt Ideal .f32)
      = pad S128 ![0] ![96] ![0] (m ((c : Thread nD τ).loc main_arg2) : S32.Idx → Elt Ideal .f32)
          (sitofp (F := Ideal) .f32 (constantI S_ 32 0#32)) pads_S32_S128_0960 h_S_ := by
    dsimp only [V, V0]
    simp only [hostOps0, hostOps0_1, hostOps0_2, hostOps0_3, List.flatten_cons, List.flatten_nil, List.append_nil,
      List.cons_append, List.nil_append]
    after_results
    rfl
  show (V m c main_v1 : S128.Idx → Elt Ideal .f32) (ix1 (col o)) = _
  rw [e]
  exact pad_apply_of_inside ![0] ![96] ![0] (m ((c : Thread nD τ).loc main_arg2) : S32.Idx → Elt Ideal .f32)
    (sitofp (F := Ideal) .f32 (constantI S_ 32 0#32)) pads_S32_S128_0960 h_S_
    (ix1 (col o)) (ix1 o) fun a => match a with
      | ⟨0, _⟩ => by show o.val = 0 + o.val * (0 + 1); omega

/-- The host's cut after the region, applied to the array the region leaves. -/
theorem tail_eq (c : Dev nD) :
    Pipeline.afterTail₀ cfgs (dats m) 0 (V0 m) [hostOps1] c main_v3
      = extractStridedSlice S256x32 ![0, 0] (result m c) slices_S256x128_S256x32_0_0 := by
  unfold Pipeline.afterTail₀
  show StableHlo.after hostOps1 _ (Proc.devRef .tc main_v3) = _
  after_results
  exact congrArg (fun a => extractStridedSlice S256x32 ![0, 0] a slices_S256x128_S256x32_0_0)
    ((Pipeline.withArrays_arr spec0 launch0.win.arr_inj c (V0 m c) (fun w => (dats m 0 c).arrAt w cfg0.N) 3).trans (final m c))

/-- Columns 0 to 31 of the layer's value over the padded arrays are the layer's value over the arguments. -/
theorem slice_eq (c : Dev nD) :
    extractStridedSlice S256x32 ![0, 0] (result m c) slices_S256x128_S256x32_0_0
      = value (m ((c : Thread nD τ).loc main_arg0)) (m ((c : Thread nD τ).loc main_arg1)) (m ((c : Thread nD τ).loc main_arg2)) := by
  funext i
  have hi : i = ix2 (i 0) (i 1) := eq_ix2 i
  rw [hi]
  refine (extractStridedSlice_apply ![0, 0] (result m c) slices_S256x128_S256x32_0_0 (ix2 (i 0) (i 1)) (ix2 (i 0) (col (i 1)))
    fun a => match a with
      | ⟨0, _⟩ => by show (i 0).val = 0 + (i 0).val; omega
      | ⟨1, _⟩ => by show (i 1).val = 0 + (i 1).val; omega).trans ?_
  show layer (fun k => xarr m c (ix2 (i 0) k)) (fun k => warr m c (ix2 k (col (i 1)))) (barr m c (ix1 (col (i 1))))
    = layer (fun k => m ((c : Thread nD τ).loc main_arg0) (ix2 (i 0) k)) (fun k => m ((c : Thread nD τ).loc main_arg1) (ix2 k (i 1)))
        (m ((c : Thread nD τ).loc main_arg2) (ix1 (i 1)))
  rw [barr_apply m c (i 1), funext fun k => warr_apply m c k (i 1)]
  show layer (fun k => V m c main_arg0 (ix2 (i 0) k)) _ _ = _
  rw [V_main_arg0 m c]

/-- The run: the result at the layer's value of the arguments, the arguments unchanged. -/
theorem run : θ_run defs (onTc (τ := τ) (main (F := Ideal))) ⟨m, fun _ => 0, ρ⟩ fun r => ∀ c : Dev nD,
      r.2.mem ((c.tc : Thread nD τ).loc main_v3)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans ((tail_eq m c).trans (slice_eq m c)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.LayerRun

end
-- ==== Proof.RefLayer.lean ====
/-
  The reference, read at one entry, at the ideal instance, is the layer.

  The reference regroups x as [256, 512, 16] and W as [512, 16, 32] (row-major: position 16 s + f of the flattened
  axis is shift s, filter f), multiplies them entry by entry over [256, 512, 16, 32], takes the maximum over the
  shift axis from −∞, sums over the filter axis from zero, adds the bias and rectifies against zero. At (row r,
  column o) that is the layer of row r of x against column o of W and the bias at o.
-/
import proofs.«152779_j77163382440516_1_alg».proof.Proof.Gen.ReferenceIdeal.Read
import proofs.«152779_j77163382440516_1_alg».proof.Proof.ShiftMax
import Idealize.ShloMosaic.PureOps.Ideal.Laws
import Idealize.ShloMosaic.Lib.ValueIdx
import Idealize.ShloMosaic.Lib.Pipeline.Value

noncomputable section

namespace Cert.ReferenceIdeal.RefLayer

open Idealize.ShloMosaic Idealize.ShloMosaic.ValueIdx Cert.ReferenceIdeal Cert.ReferenceIdeal.Gen Cert.ReferenceIdeal.Read Cert.ShiftMax

/-- The product stage at (row r, shift s, filter f, column o): x at row r, position 16 s + f, times W at position
    16 s + f, column o. The two regroupings are row-major, so the flattened position of (s, f) is 16 s + f. -/
theorem prod_apply (x : (⟨S256x8192, .f32⟩ : BufTy).Contents (Elt Ideal)) (w : (⟨S8192x32, .f32⟩ : BufTy).Contents (Elt Ideal))
    (r : Fin 256) (s : Fin 512) (f : Fin 16) (o : Fin 32) :
    val_main_v6 (F := Ideal) x w (ix4 r s f o) = x (ix2 r (pos s f)) * w (ix2 (pos s f) o) := by
  rw [val_main_v6_apply, val_main_v4_apply, val_main_v2_apply, val_main_v0_apply, val_main_v5_apply, val_main_v3_apply,
    val_main_v1_apply]
  have hr := r.isLt
  have hs := s.isLt
  have hf := f.isLt
  have ho := o.isLt
  have ex : idx_main_v0 (idx_main_v2 (idx_main_v4 (ix4 r s f o))) = ix2 r (pos s f) := by
    funext a
    match a with
    | ⟨0, _⟩ => exact Fin.ext (by show ((r.val * 512 + s.val) * 16 + f.val) / 8192 = r.val; omega)
    | ⟨1, _⟩ => exact Fin.ext (by show ((r.val * 512 + s.val) * 16 + f.val) % 8192 = s.val * 16 + f.val; omega)
  have ew : idx_main_v1 (idx_main_v3 (idx_main_v5 (ix4 r s f o))) = ix2 (pos s f) o := by
    funext a
    match a with
    | ⟨0, _⟩ => exact Fin.ext (by show ((s.val * 16 + f.val) * 32 + o.val) / 32 = s.val * 16 + f.val; omega)
    | ⟨1, _⟩ => exact Fin.ext (by show ((s.val * 16 + f.val) * 32 + o.val) % 32 = o.val; omega)
  rw [ex, ew]
  rfl

/-- The maximum stage at (row r, filter f, column o): the maximum, from −∞, over all 512 shifts of the products of
    row r of x against column o of W at filter f. -/
theorem max_apply (x : (⟨S256x8192, .f32⟩ : BufTy).Contents (Elt Ideal)) (w : (⟨S8192x32, .f32⟩ : BufTy).Contents (Elt Ideal))
    (r : Fin 256) (f : Fin 16) (o : Fin 32) :
    val_main_v7 (F := Ideal) x w (ix3 r f o)
      = allMax (prods (fun k => x (ix2 r k)) (fun k => w (ix2 k o)) f) := by
  have h : S256x512x16x32.Reduces [1] S256x16x32 := by decide
  unfold val_main_v7
  rw [Host.reduce_eq_fold_single (FloatOps.maximumf (F := Ideal) (φ := .f32)) _ _ reducesTo_S256x512x16x32_S256x16x32_d1 h h_S_]
  -- With shift s put back as the second coordinate, the index is (r, s, f, o), where the product stage was read.
  have hfun : (val_main_v6 (F := Ideal) x w) ∘ h.lift (ix3 r f o)
      = prods (fun k => x (ix2 r k)) (fun k => w (ix2 k o)) f := by
    refine funext fun (s : Fin 512) => ?_
    have hl : h.lift (ix3 r f o) s = ix4 r s f o := by
      funext a
      match a with
      | ⟨0, _⟩ => rfl
      | ⟨1, _⟩ => rfl
      | ⟨2, _⟩ => rfl
      | ⟨3, _⟩ => rfl
    show val_main_v6 (F := Ideal) x w (h.lift (ix3 r f o) s) = _
    rw [hl, prod_apply]
    rfl
  rw [hfun]
  -- The initial word is −∞, the bottom of the extended reals.
  have hinit : (val_main_cst (F := Ideal)) (Shape.Idx.first h_S_) = (⊥ : EReal) := by
    rw [val_main_cst_apply]
    show Ideal.ofBits .f32 0xFF800000#32 = ⊥
    simp [Ideal.ofBits, Ideal.ieee]
  rw [hinit]
  rfl

/-- The reference's result at (r, o) is the layer of x's row r against W's column o and b's entry o. -/
theorem result_apply (x : (⟨S256x8192, .f32⟩ : BufTy).Contents (Elt Ideal)) (w : (⟨S8192x32, .f32⟩ : BufTy).Contents (Elt Ideal))
    (b : (⟨S32, .f32⟩ : BufTy).Contents (Elt Ideal)) (r : Fin 256) (o : Fin 32) :
    val_main_v12 (F := Ideal) x w b (ix2 r o)
      = layer (fun k => x (ix2 r k)) (fun k => w (ix2 k o)) (b (ix1 o)) := by
  rw [val_main_v12_apply, val_main_v11_apply, val_main_v8_apply, val_main_v10_apply, val_main_v9_apply,
    val_main_call0_v0_apply, val_main_call0_cst_apply, val_main_cst_0_apply]
  -- The broadcast bias is read at column o.
  have hb : idx_main_v9 (idx_main_v10 (ix2 r o)) = ix1 o := by
    funext a
    match a with
    | ⟨0, _⟩ => rfl
  -- Each term of the sum over the filters is that filter's maximum over all shifts.
  have hsum : ∀ k : Fin 16, val_main_v7 (F := Ideal) x w (idx_main_v8 (ix2 r o) k)
      = allMax (prods (fun k => x (ix2 r k)) (fun k => w (ix2 k o)) k) := by
    intro k
    have hk : idx_main_v8 (ix2 r o) k = ix3 r k o := by
      funext a
      match a with
      | ⟨0, _⟩ => rfl
      | ⟨1, _⟩ => rfl
      | ⟨2, _⟩ => rfl
    rw [hk, max_apply]
  rw [hb, Finset.sum_congr rfl fun k _ => hsum k]
  -- Both zero words are the real number zero: the sum starts from it and the result is rectified against it.
  show max (Ideal.ofBits .f32 0x00000000#32 + _ + b (ix1 o)) (Ideal.ofBits .f32 0x00000000#32) = _
  rw [Ideal.ofBits_zero_f32, zero_add]
  rfl

end Cert.ReferenceIdeal.RefLayer

end
-- ==== Proof.lean ====
/-
  The kernel against its reference: a layer that, for each row of x and each output column, multiplies the row
  with the column of the weights position by position, takes for each of 16 filters the maximum over 512 shifts
  (position 16 s + f is shift s, filter f), sums the 16 maxima, adds the bias and rectifies against zero.

  The reference does this over whole arrays. The kernel pads the output columns from 32 to 128, walks a grid of
  4 row blocks by 16 tiles of 32 shifts, keeps the running maximum in a scratch array that it resets to −∞ at the
  first tile of a row block, and at the last tile sums, adds the bias, rectifies and writes the block; the host cuts
  the padded columns away. Over the extended reals the two agree entry by entry: the maximum over all shifts is the
  running maximum after the last tile (−∞ is neutral for `max`, and a maximum may be taken tile by tile), the sum
  and the rest are the same terms, and a padded column never reaches a kept one. No entry needs to be finite for
  this, so the precondition is never opened.

  The modules: ShiftMax (the mathematics), Payloads (the body's stored values at an entry), Pieces (what one visit
  of the body leaves), RunningMax (the induction over the grid and the output array), LayerRun (the padding, the
  cut, the run), RefLayer (the reference at an entry). The three programs' frames are the generated ones; the ideal
  pass rewrote nothing, so the kernel's idealization is the kernel's own text read over the extended reals.
-/
import proofs.«152779_j77163382440516_1_alg».proof.Defs
import proofs.«152779_j77163382440516_1_alg».proof.Proof.Gen.Kernel
import proofs.«152779_j77163382440516_1_alg».proof.Proof.Gen.Kernel.Skeleton
import proofs.«152779_j77163382440516_1_alg».proof.Proof.Gen.Kernel.Launch
import proofs.«152779_j77163382440516_1_alg».proof.Proof.Gen.Kernel.Points
import proofs.«152779_j77163382440516_1_alg».proof.Proof.Gen.Kernel.Frame
import proofs.«152779_j77163382440516_1_alg».proof.Proof.Gen.KernelIdeal
import proofs.«152779_j77163382440516_1_alg».proof.Proof.Gen.KernelIdeal.Skeleton
import proofs.«152779_j77163382440516_1_alg».proof.Proof.Gen.KernelIdeal.Launch
import proofs.«152779_j77163382440516_1_alg».proof.Proof.Gen.KernelIdeal.Points
import proofs.«152779_j77163382440516_1_alg».proof.Proof.Gen.KernelIdeal.Frame
import proofs.«152779_j77163382440516_1_alg».proof.Proof.Gen.ReferenceIdeal
import proofs.«152779_j77163382440516_1_alg».proof.Proof.Gen.ReferenceIdeal.Run
import proofs.«152779_j77163382440516_1_alg».proof.Proof.Gen.ReferenceIdeal.Read
import proofs.«152779_j77163382440516_1_alg».proof.Proof.Gen.Pre_finite_inputs
import proofs.«152779_j77163382440516_1_alg».proof.Proof.LayerRun
import proofs.«152779_j77163382440516_1_alg».proof.Proof.RefLayer
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array is the layer's value of its arguments. -/
theorem reference_value (x : (⟨Cert.ReferenceIdeal.S256x8192, .f32⟩ : BufTy).Contents (Elt Ideal))
    (w : (⟨Cert.ReferenceIdeal.S8192x32, .f32⟩ : BufTy).Contents (Elt Ideal))
    (b : (⟨Cert.ReferenceIdeal.S32, .f32⟩ : BufTy).Contents (Elt Ideal)) :
    Cert.ReferenceIdeal.Read.val_main_v12 (F := Ideal) x w b = Cert.ShiftMax.value x w b :=
  funext fun i => (congrArg (Cert.ReferenceIdeal.Read.val_main_v12 (F := Ideal) x w b) (eq_ix2 i)).trans
    (Cert.ReferenceIdeal.RefLayer.result_apply x w b (i 0) (i 1))

/-- Both programs end with their result at the layer's value of arguments that agree. -/
theorem algebraic : Cert.algebraic_KernelIdeal_ReferenceIdeal := by
  intro m ρ m' ρ' _ hagree
  refine ⟨_, Cert.KernelIdeal.LayerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, reference_value, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
